-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : FVec F S128x64 .f32) (main_arg2 : FVec F S64 .f32) (main_arg3 : FVec F S64 .f32) (main_arg4 : FVec F S64 .f32) (main_arg5 : FVec F S64 .f32) (main_arg6 : FVec F S64 .f32) (main_arg7 : IVec S1000000x2 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S1000000x1 : Shape := ⟨2, ![1000000, 1]⟩
abbrev S1000000 : Shape := ⟨1, ![1000000]⟩
abbrev S1x64 : Shape := ⟨2, ![1, 64]⟩
abbrev S100000x64 : Shape := ⟨2, ![100000, 64]⟩
abbrev S4000x128 : Shape := ⟨2, ![4000, 128]⟩
abbrev S4000x64 : Shape := ⟨2, ![4000, 64]⟩
abbrev S_ : Shape := ⟨0, ![]⟩
abbrev S100000 : Shape := ⟨1, ![100000]⟩
abbrev S1000000x64 : Shape := ⟨2, ![1000000, 64]⟩
abbrev S100000x1 : Shape := ⟨2, ![100000, 1]⟩

abbrev nBuf : Space → Nat
  | .hbm => 101
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1000000x2, .i32⟩
  | .hbm, ⟨8, _⟩ => ⟨S1000000x1, .i32⟩
  | .hbm, ⟨9, _⟩ => ⟨S1000000, .i32⟩
  | .hbm, ⟨10, _⟩ => ⟨S1000000x1, .i32⟩
  | .hbm, ⟨11, _⟩ => ⟨S1000000, .i32⟩
  | .hbm, ⟨12, _⟩ => ⟨S1x64, .f32⟩
  | .hbm, ⟨13, _⟩ => ⟨S100000x64, .f32⟩
  | .hbm, ⟨14, _⟩ => ⟨S_, .f32⟩
  | .hbm, ⟨15, _⟩ => ⟨S1000000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1000000, .i32⟩
  | .hbm, ⟨25, _⟩ => ⟨S1000000, .i1⟩
  | .hbm, ⟨26, _⟩ => ⟨S_, .i32⟩
  | .hbm, ⟨27, _⟩ => ⟨S1000000, .i32⟩
  | .hbm, ⟨28, _⟩ => ⟨S1000000, .i32⟩
  | .hbm, ⟨29, _⟩ => ⟨S1000000, .i32⟩
  | .hbm, ⟨30, _⟩ => ⟨S1000000x1, .i32⟩
  | .hbm, ⟨31, _⟩ => ⟨S1000000, .f32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000, .f32⟩
  | .hbm, ⟨41, _⟩ => ⟨S1000000, .f32⟩
  | .hbm, ⟨42, _⟩ => ⟨S1000000x1, .f32⟩
  | .hbm, ⟨43, _⟩ => ⟨S_, .i32⟩
  | .hbm, ⟨44, _⟩ => ⟨S1000000, .i32⟩
  | .hbm, ⟨45, _⟩ => ⟨S1000000, .i1⟩
  | .hbm, ⟨46, _⟩ => ⟨S_, .i32⟩
  | .hbm, ⟨47, _⟩ => ⟨S1000000, .i32⟩
  | .hbm, ⟨48, _⟩ => ⟨S1000000, .i32⟩
  | .hbm, ⟨49, _⟩ => ⟨S1000000, .i32⟩
  | .hbm, ⟨50, _⟩ => ⟨S1000000x1, .i32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S_, .f32⟩
  | .hbm, ⟨55, _⟩ => ⟨S100000x64, .f32⟩
  | .hbm, ⟨56, _⟩ => ⟨S1000000x1, .i32⟩
  | .hbm, ⟨57, _⟩ => ⟨S100000x64, .f32⟩
  | .hbm, ⟨58, _⟩ => ⟨S_, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000, .f32⟩
  | .hbm, ⟨70, _⟩ => ⟨S1000000x1, .f32⟩
  | .hbm, ⟨71, _⟩ => ⟨S_, .i32⟩
  | .hbm, ⟨72, _⟩ => ⟨S1000000, .i32⟩
  | .hbm, ⟨73, _⟩ => ⟨S1000000, .i1⟩
  | .hbm, ⟨74, _⟩ => ⟨S_, .i32⟩
  | .hbm, ⟨75, _⟩ => ⟨S1000000, .i32⟩
  | .hbm, ⟨76, _⟩ => ⟨S1000000, .i32⟩
  | .hbm, ⟨77, _⟩ => ⟨S1000000, .i32⟩
  | .hbm, ⟨78, _⟩ => ⟨S1000000x1, .i32⟩
  | .hbm, ⟨79, _⟩ => ⟨S1000000x64, .f32⟩
  | .hbm, ⟨80, _⟩ => ⟨S1000000x64, .f32⟩
  | .hbm, ⟨81, _⟩ => ⟨S1000000x64, .f32⟩
  | .hbm, ⟨82, _⟩ => ⟨S_, .f32⟩
  | .hbm, ⟨83, _⟩ => ⟨S100000x64, .f32⟩
  | .hbm, ⟨84, _⟩ => ⟨S1000000x1, .i32⟩
  | .hbm, ⟨85, _⟩ => ⟨S100000x64, .f32⟩
  | .hbm, ⟨86, _⟩ => ⟨S_, .f32⟩
  | .hbm, ⟨87, _⟩ => ⟨S100000, .f32⟩
  | .hbm, ⟨88, _⟩ => ⟨S100000, .f32⟩
  | .hbm, ⟨89, _⟩ => ⟨S100000x1, .f32⟩
  | .hbm, ⟨90, _⟩ => ⟨S100000x64, .f32⟩
  | .hbm, ⟨91, _⟩ => ⟨S100000x64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S1x64, .f32⟩
  | .hbm, ⟨98, _⟩ => ⟨S1x64, .f32⟩
  | .hbm, ⟨99, _⟩ => ⟨S1x64, .f32⟩
  | .hbm, ⟨100, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x64, .f32⟩
  | .local _ .vmem, ⟨3, _⟩ => ⟨S1x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S4000x64, .f32⟩
  | .local _ .vmem, ⟨8, _⟩ => ⟨S4000x64, .f32⟩
  | .local _ .vmem, ⟨9, _⟩ => ⟨S4000x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S4000x64, .f32⟩
  | .local _ .vmem, ⟨14, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_c_9 : Ref sig .tc := ⟨.hbm, 61, rfl⟩
abbrev main_v42 : Ref sig .tc := ⟨.hbm, 62, rfl⟩
abbrev main_v43 : Ref sig .tc := ⟨.hbm, 63, rfl⟩
abbrev main_c_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_11 : Ref sig .tc := ⟨.hbm, 71, rfl⟩
abbrev main_v50 : Ref sig .tc := ⟨.hbm, 72, rfl⟩
abbrev main_v51 : Ref sig .tc := ⟨.hbm, 73, rfl⟩
abbrev main_c_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_13 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_14 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  shapeCasts_S64_S1x64 : S64.ShapeCasts S1x64
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S64 : S_.BroadcastsInDim S64 (![] : Fin 0 → Fin S64.rank)
  shapeCasts_S4000x64_S4000x64 : S4000x64.ShapeCasts S4000x64
  dot_S4000x128_S128x64_S4000x64_1_0_0_1_n_n_wf : DotDims.WF S4000x128 S128x64 S4000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x64.size a ≤ S100000x64.size a
  hwx1_5 : ∀ i : grid1.Coords, EltTy.bits .f32 = 32 ∨ (Rect.block (s := S100000x64) S4000x64.size (cc1_transform_5 i) (hinb1_5 i)).WholeWords (EltTy.packing .f32)

variable [Facts₀]

def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v41) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v66) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v71) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v72) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v73) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v74) S4000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S1000000x2 : Shape := ⟨2, ![1000000, 2]⟩
abbrev S1000000x1 : Shape := ⟨2, ![1000000, 1]⟩
abbrev S1000000 : Shape := ⟨1, ![1000000]⟩
abbrev S100000x64 : Shape := ⟨2, ![100000, 64]⟩
abbrev S1x64 : Shape := ⟨2, ![1, 64]⟩
abbrev S_ : Shape := ⟨0, ![]⟩
abbrev S100000 : Shape := ⟨1, ![100000]⟩
abbrev S1000000x64 : Shape := ⟨2, ![1000000, 64]⟩
abbrev S100000x1 : Shape := ⟨2, ![100000, 1]⟩

abbrev nBuf : Space → Nat
  | .hbm => 112
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S1000000x2, .i32⟩
  | .hbm, ⟨8, _⟩ => ⟨S1000000x1, .i32⟩
  | .hbm, ⟨9, _⟩ => ⟨S1000000, .i32⟩
  | .hbm, ⟨10, _⟩ => ⟨S1000000x1, .i32⟩
  | .hbm, ⟨11, _⟩ => ⟨S1000000, .i32⟩
  | .hbm, ⟨12, _⟩ => ⟨S100000x64, .f32⟩
  | .hbm, ⟨13, _⟩ => ⟨S1x64, .f32⟩
  | .hbm, ⟨14, _⟩ => ⟨S100000x64, .f32⟩
  | .hbm, ⟨15, _⟩ => ⟨S100000x64, .f32⟩
  | .hbm, ⟨16, _⟩ => ⟨S_, .f32⟩
  | .hbm, ⟨17, _⟩ => ⟨S1000000, .f32⟩
  | .hbm, ⟨18, _⟩ => ⟨S_, .f32⟩
  | .hbm, ⟨19, _⟩ => ⟨S100000, .f32⟩
  | .hbm, ⟨20, _⟩ => ⟨S1000000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000, .f32⟩
  | .hbm, ⟨43, _⟩ => ⟨S1000000, .f32⟩
  | .hbm, ⟨44, _⟩ => ⟨S1000000x1, .f32⟩
  | .hbm, ⟨45, _⟩ => ⟨S_, .i32⟩
  | .hbm, ⟨46, _⟩ => ⟨S1000000, .i32⟩
  | .hbm, ⟨47, _⟩ => ⟨S1000000, .i1⟩
  | .hbm, ⟨48, _⟩ => ⟨S_, .i32⟩
  | .hbm, ⟨49, _⟩ => ⟨S1000000, .i32⟩
  | .hbm, ⟨50, _⟩ => ⟨S1000000, .i32⟩
  | .hbm, ⟨51, _⟩ => ⟨S1000000, .i32⟩
  | .hbm, ⟨52, _⟩ => ⟨S1000000x1, .i32⟩
  | .hbm, ⟨53, _⟩ => ⟨S1000000x64, .f32⟩
  | .hbm, ⟨54, _⟩ => ⟨S1000000x64, .f32⟩
  | .hbm, ⟨55, _⟩ => ⟨S1000000x64, .f32⟩
  | .hbm, ⟨56, _⟩ => ⟨S_, .f32⟩
  | .hbm, ⟨57, _⟩ => ⟨S100000x64, .f32⟩
  | .hbm, ⟨58, _⟩ => ⟨S1000000x1, .i32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S_, .i32⟩
  | .hbm, ⟨64, _⟩ => ⟨S1000000, .i32⟩
  | .hbm, ⟨65, _⟩ => ⟨S1000000, .i1⟩
  | .hbm, ⟨66, _⟩ => ⟨S_, .i32⟩
  | .hbm, ⟨67, _⟩ => ⟨S1000000, .i32⟩
  | .hbm, ⟨68, _⟩ => ⟨S1000000, .i32⟩
  | .hbm, ⟨69, _⟩ => ⟨S1000000, .i32⟩
  | .hbm, ⟨70, _⟩ => ⟨S1000000x1, .i32⟩
  | .hbm, ⟨71, _⟩ => ⟨S1000000, .f32⟩
  | .hbm, ⟨72, _⟩ => ⟨S1000000x1, .f32⟩
  | .hbm, ⟨73, _⟩ => ⟨S_, .i32⟩
  | .hbm, ⟨74, _⟩ => ⟨S1000000, .i32⟩
  | .hbm, ⟨75, _⟩ => ⟨S1000000, .i1⟩
  | .hbm, ⟨76, _⟩ => ⟨S_, .i32⟩
  | .hbm, ⟨77, _⟩ => ⟨S1000000, .i32⟩
  | .hbm, ⟨78, _⟩ => ⟨S1000000, .i32⟩
  | .hbm, ⟨79, _⟩ => ⟨S1000000, .i32⟩
  | .hbm, ⟨80, _⟩ => ⟨S1000000x1, .i32⟩
  | .hbm, ⟨81, _⟩ => ⟨S1000000x64, .f32⟩
  | .hbm, ⟨82, _⟩ => ⟨S1000000x64, .f32⟩
  | .hbm, ⟨83, _⟩ => ⟨S1000000x64, .f32⟩
  | .hbm, ⟨84, _⟩ => ⟨S_, .f32⟩
  | .hbm, ⟨85, _⟩ => ⟨S100000x64, .f32⟩
  | .hbm, ⟨86, _⟩ => ⟨S1000000x1, .i32⟩
  | .hbm, ⟨87, _⟩ => ⟨S100000x64, .f32⟩
  | .hbm, ⟨88, _⟩ => ⟨S_, .f32⟩
  | .hbm, ⟨89, _⟩ => ⟨S100000, .f32⟩
  | .hbm, ⟨90, _⟩ => ⟨S100000, .f32⟩
  | .hbm, ⟨91, _⟩ => ⟨S100000x1, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1x64, .f32⟩
  | .hbm, ⟨99, _⟩ => ⟨S100000x64, .f32⟩
  | .hbm, ⟨100, _⟩ => ⟨S100000x64, .f32⟩
  | .hbm, ⟨101, _⟩ => ⟨S_, .f32⟩
  | .hbm, ⟨102, _⟩ => ⟨S64, .f32⟩
  | .hbm, ⟨103, _⟩ => ⟨S64, .f32⟩
  | .hbm, ⟨104, _⟩ => ⟨S64, .f32⟩
  | .hbm, ⟨105, _⟩ => ⟨S64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S1x64, .f32⟩
  | .hbm, ⟨110, _⟩ => ⟨S100000x64, .f32⟩
  | .hbm, ⟨111, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_c_9 : Ref sig .tc := ⟨.hbm, 63, rfl⟩
abbrev main_v44 : Ref sig .tc := ⟨.hbm, 64, rfl⟩
abbrev main_v45 : Ref sig .tc := ⟨.hbm, 65, rfl⟩
abbrev main_c_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_16 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩

abbrev nD : Nat := 1
abbrev τ : Topo := Topo.v7x

variable {F : FTy → Type} [FloatOps F]

class Facts₀ : Prop where
  slices_S1000000x2_S1000000x1_0_0 : S1000000x2.Slices ![0, 0] S1000000x1
  shapeCasts_S1000000x1_S1000000 : S1000000x1.ShapeCasts S1000000
  slices_S1000000x2_S1000000x1_0_1 : S1000000x2.Slices ![0, 1] S1000000x1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S64 : S_.BroadcastsInDim S64 (![] : Fin 0 → Fin S64.rank)
  dot_S100000x128_S128x64_S100000x64_1_0_0_1_n_n_wf : DotDims.WF S100000x128 S128x64 S100000x64 [1] [0] [0] [1] [] []
  scatter_S100000_S1000000x1_S1000000_n_0_0_1_wf : ScatterDims.WF S100000 S1000000x1 S1000000 [] [0] [0] 1
  gather_S100000_S1000000x1_S1000000_n_0_n_n_0_1_1_wf : GatherDims.WF S100000 S1000000x1 S1000000 [] [0] [] [0] [] 1 ![1]
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000_S1000000x1_S1000000_n_0_n_n_0_1_1 : GatherDims S100000 S1000000x1 S1000000 where
  offsetDims := []
  collapsedSliceDims := [0]
  operandBatchingDims := []
  startIndicesBatchingDims := []
  startIndexMap := [0]
  indexVectorDim := 1
  sliceSizes := ![1]
  wf := gather_S100000_S1000000x1_S1000000_n_0_n_n_0_1_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf

class Facts : Prop extends Facts₀ where

variable [Facts]
-- ==== Proof.Chain.lean ====
/-
  The host pipeline that both programs run between the dense transform `h` and the final combine, as functions of
  `h` and of the two columns of the edge list (`src`, `dst`): the same operations in the same order on both sides, so
  they are named once here and never opened.

  * `deg`: the out-degree of every node, ones summed into the node the edge's source names.
  * `invSqrtDeg`: the degree to the power −½.
  * `wrap`: a column of node indices with each negative entry moved up once by the node count.
  * `edgeScale`: per edge, the product of the two endpoint factors `deg(src)^(−½) · deg(dst)^(−½)`.
  * `agg`: half the sum, into each edge's source node, of the edge's scale times the row of `h` at its destination.
  * `selfMean`: the sum, into each edge's source node, of the source's degree times the row of `h` at the source,
    divided by the larger of the degree and one.
  * `bnScale`: `gamma · (var + 10⁻³)^(−½)`, the constant being the float nearest one thousandth.
  * `srcOf`, `dstOf`, `row`: the two columns of the edge list, and a 64-vector laid out as one row.
-/
import proofs.«138750_j33552284516502_1_alg».proof.KernelIdeal

noncomputable section

namespace Cert.KernelIdeal.Chain

open Idealize.ShloMosaic Cert.KernelIdeal Cert.KernelIdeal.Facts₀

variable {F : FTy → Type} [FloatOps F] [Cert.KernelIdeal.Facts]

/-- The edge list's first column, the source of every edge. -/
def srcOf (e : (⟨S1000000x2, .i32⟩ : BufTy).Contents (Elt F)) : (⟨S1000000, .i32⟩ : BufTy).Contents (Elt F) :=
  shapeCast _ (extractStridedSlice S1000000x1 ![0, 0] e slices_S1000000x2_S1000000x1_0_0) shapeCasts_S1000000x1_S1000000

/-- The edge list's second column, the destination of every edge. -/
def dstOf (e : (⟨S1000000x2, .i32⟩ : BufTy).Contents (Elt F)) : (⟨S1000000, .i32⟩ : BufTy).Contents (Elt F) :=
  shapeCast _ (extractStridedSlice S1000000x1 ![0, 1] e slices_S1000000x2_S1000000x1_0_1) shapeCasts_S1000000x1_S1000000

/-- A vector of 64 entries as a one-row array. -/
def row (v : (⟨S64, .f32⟩ : BufTy).Contents (Elt F)) : (⟨S1x64, .f32⟩ : BufTy).Contents (Elt F) :=
  shapeCast _ v shapeCasts_S64_S1x64

/-- Negative node indices moved up once by the node count. -/
def wrap (x : (⟨S1000000, .i32⟩ : BufTy).Contents (Elt F)) : (⟨S1000000, .i32⟩ : BufTy).Contents (Elt F) :=
  select (cmpi .slt x (broadcastInDim S1000000 ![] bcast_S_S1000000 (constantI S_ 32 0#32)))
    (addi x (broadcastInDim S1000000 ![] bcast_S_S1000000 (constantI S_ 32 100000#32))) x

/-- A column of node indices as a one-column index table. -/
def col (x : (⟨S1000000, .i32⟩ : BufTy).Contents (Elt F)) : (⟨S1000000x1, .i32⟩ : BufTy).Contents (Elt F) :=
  broadcastInDim S1000000x1 ![0] bcast_S1000000_S1000000x1_0 x

/-- The out-degree of every node. -/
def deg (src : (⟨S1000000, .i32⟩ : BufTy).Contents (Elt F)) : (⟨S100000, .f32⟩ : BufTy).Contents (Elt F) :=
  Host.scatterAdd scatter_S100000_S1000000x1_S1000000_n_0_0_1
    (broadcastInDim S100000 ![] bcast_S_S100000 (constant S_ .f32 0x00000000#32)) (col src)
    (broadcastInDim S1000000 ![] bcast_S_S1000000 (constant S_ .f32 0x3F800000#32))

/-- The degree to the power −½. -/
def invSqrtDeg (src : (⟨S1000000, .i32⟩ : BufTy).Contents (Elt F)) : (⟨S100000, .f32⟩ : BufTy).Contents (Elt F) :=
  Host.powf (deg src) (broadcastInDim S100000 ![] bcast_S_S100000 (constant S_ .f32 0xBF000000#32))

/-- A per-node value read at the node each entry of a wrapped index column names. -/
def atNodes (v : (⟨S100000, .f32⟩ : BufTy).Contents (Elt F)) (x : (⟨S1000000, .i32⟩ : BufTy).Contents (Elt F)) :
    (⟨S1000000, .f32⟩ : BufTy).Contents (Elt F) :=
  Host.gather gather_S100000_S1000000x1_S1000000_n_0_n_n_0_1_1 v (col (wrap x))

/-- Per edge, the product of the two endpoint factors. -/
def edgeScale (src dst : (⟨S1000000, .i32⟩ : BufTy).Contents (Elt F)) : (⟨S1000000, .f32⟩ : BufTy).Contents (Elt F) :=
  mulf (atNodes (invSqrtDeg src) src) (atNodes (invSqrtDeg src) dst)

/-- A per-edge scalar repeated along the 64 hidden columns. -/
def perEdge (s : (⟨S1000000, .f32⟩ : BufTy).Contents (Elt F)) : (⟨S1000000x64, .f32⟩ : BufTy).Contents (Elt F) :=
  broadcastInDim S1000000x64 ![0, 1] bcast_S1000000x1_S1000000x64_0_1 (broadcastInDim S1000000x1 ![0] bcast_S1000000_S1000000x1_0 s)

/-- The rows of `h` at the node each entry of a wrapped index column names. -/
def rowsAt (h : (⟨S100000x64, .f32⟩ : BufTy).Contents (Elt F)) (x : (⟨S1000000, .i32⟩ : BufTy).Contents (Elt F)) :
    (⟨S1000000x64, .f32⟩ : BufTy).Contents (Elt F) :=
  Host.gather gather_S100000x64_S1000000x1_S1000000x64_1_0_n_n_0_1_164 h (col (wrap x))

/-- Per-edge rows summed into the node each edge's source names. -/
def segSum (src : (⟨S1000000, .i32⟩ : BufTy).Contents (Elt F)) (u : (⟨S1000000x64, .f32⟩ : BufTy).Contents (Elt F)) :
    (⟨S100000x64, .f32⟩ : BufTy).Contents (Elt F) :=
  Host.scatterAdd scatter_S100000x64_S1000000x1_S1000000x64_1_0_0_1
    (broadcastInDim S100000x64 ![] bcast_S_S100000x64 (constant S_ .f32 0x00000000#32)) (col src) u

/-- Half the neighbour sum. -/
def agg (h : (⟨S100000x64, .f32⟩ : BufTy).Contents (Elt F)) (src dst : (⟨S1000000, .i32⟩ : BufTy).Contents (Elt F)) :
    (⟨S100000x64, .f32⟩ : BufTy).Contents (Elt F) :=
  mulf (broadcastInDim S100000x64 ![] bcast_S_S100000x64 (constant S_ .f32 0x3F000000#32))
    (segSum src (mulf (perEdge (edgeScale src dst)) (rowsAt h dst)))

/-- The degree-weighted self sum over the larger of the degree and one. -/
def selfMean (h : (⟨S100000x64, .f32⟩ : BufTy).Contents (Elt F)) (src : (⟨S1000000, .i32⟩ : BufTy).Contents (Elt F)) :
    (⟨S100000x64, .f32⟩ : BufTy).Contents (Elt F) :=
  Host.divf (segSum src (mulf (perEdge (atNodes (deg src) src)) (rowsAt h src)))
    (broadcastInDim S100000x64 ![0, 1] bcast_S100000x1_S100000x64_0_1
      (broadcastInDim S100000x1 ![0] bcast_S100000_S100000x1_0
        (maximumf (deg src) (broadcastInDim S100000 ![] bcast_S_S100000 (constant S_ .f32 0x3F800000#32)))))

/-- The normalisation's scale. -/
def bnScale (gamma var : (⟨S64, .f32⟩ : BufTy).Contents (Elt F)) : (⟨S64, .f32⟩ : BufTy).Contents (Elt F) :=
  mulf gamma (Host.rsqrt (addf var (broadcastInDim S64 ![] bcast_S_S64 (constant S_ .f32 0x3A83126F#32))))

end Cert.KernelIdeal.Chain

end
-- ==== Proof.KHost.lean ====
/-
  The idealized kernel program's buffer contents where its two regions are entered, read through the host stretches.

  Before region 0 the program slices the edge list into its two columns and lays the bias out as one row; nothing else
  is written, so the node features, the weights and the normalisation's vectors are still the launch contents. Between
  the regions it runs the shared pipeline on region 0's output array `h`: the buffers region 1's windows name then hold
  the neighbour aggregate and the self mean of `h`, and the scale, shift and mean as one-row arrays. A region writes only
  its own output array, so every other buffer crosses it unchanged.
-/
import proofs.«138750_j33552284516502_1_alg».proof.Proof.Gen.KernelIdeal.Frame
import proofs.«138750_j33552284516502_1_alg».proof.Proof.Chain

set_option maxRecDepth 16384

noncomputable section

namespace Cert.KernelIdeal.HostRead

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## Where region 0 is entered -/

/-- The node features are the launch contents. -/
theorem entry0_features (c : Dev nD) : V1 m ρ c main_arg0 = m ((c : Thread nD τ).loc main_arg0) := by
  show StableHlo.after hostOps0 (W0 m ρ c) (Proc.devRef .tc main_arg0) = _
  after_results

/-- The weights are the launch contents. -/
theorem entry0_weights (c : Dev nD) : V1 m ρ c main_arg1 = m ((c : Thread nD τ).loc main_arg1) := by
  show StableHlo.after hostOps0 (W0 m ρ c) (Proc.devRef .tc main_arg1) = _
  after_results

/-- The bias, laid out as one row. -/
theorem entry0_bias (c : Dev nD) : V1 m ρ c main_v4 = Chain.row (m ((c : Thread nD τ).loc main_arg2)) := by
  show StableHlo.after hostOps0 (W0 m ρ c) (Proc.devRef .tc main_v4) = _
  after_results; rfl

/-- The edges' sources. -/
theorem entry0_src (c : Dev nD) : V1 m ρ c main_v1 = Chain.srcOf (m ((c : Thread nD τ).loc main_arg7)) := by
  show StableHlo.after hostOps0 (W0 m ρ c) (Proc.devRef .tc main_v1) = _
  after_results; rfl

/-- The edges' destinations. -/
theorem entry0_dst (c : Dev nD) : V1 m ρ c main_v3 = Chain.dstOf (m ((c : Thread nD τ).loc main_arg7)) := by
  show StableHlo.after hostOps0 (W0 m ρ c) (Proc.devRef .tc main_v3) = _
  after_results; rfl

/-- The normalisation's `gamma`. -/
theorem entry0_gamma (c : Dev nD) : V1 m ρ c main_arg3 = m ((c : Thread nD τ).loc main_arg3) := by
  show StableHlo.after hostOps0 (W0 m ρ c) (Proc.devRef .tc main_arg3) = _
  after_results

/-- The normalisation's `beta`. -/
theorem entry0_beta (c : Dev nD) : V1 m ρ c main_arg4 = m ((c : Thread nD τ).loc main_arg4) := by
  show StableHlo.after hostOps0 (W0 m ρ c) (Proc.devRef .tc main_arg4) = _
  after_results

/-- The normalisation's running mean. -/
theorem entry0_mean (c : Dev nD) : V1 m ρ c main_arg5 = m ((c : Thread nD τ).loc main_arg5) := by
  show StableHlo.after hostOps0 (W0 m ρ c) (Proc.devRef .tc main_arg5) = _
  after_results

/-- The normalisation's running variance. -/
theorem entry0_var (c : Dev nD) : V1 m ρ c main_arg6 = m ((c : Thread nD τ).loc main_arg6) := by
  show StableHlo.after hostOps0 (W0 m ρ c) (Proc.devRef .tc main_arg6) = _
  after_results

/-! ## Across region 0: its output array is what its points leave, every other buffer is untouched -/

theorem exit0_hidden (c : Dev nD) : V2 m ρ c main_v5 = (dat0 (V1 m ρ) c).arrAt 3 cfg0.N := W2_arr m ρ c 3
theorem exit0_src (c : Dev nD) : V2 m ρ c main_v1 = V1 m ρ c main_v1 := W2_of_ne m ρ c main_v1 (by decide)
theorem exit0_dst (c : Dev nD) : V2 m ρ c main_v3 = V1 m ρ c main_v3 := W2_of_ne m ρ c main_v3 (by decide)
theorem exit0_gamma (c : Dev nD) : V2 m ρ c main_arg3 = V1 m ρ c main_arg3 := W2_of_ne m ρ c main_arg3 (by decide)
theorem exit0_beta (c : Dev nD) : V2 m ρ c main_arg4 = V1 m ρ c main_arg4 := W2_of_ne m ρ c main_arg4 (by decide)
theorem exit0_mean (c : Dev nD) : V2 m ρ c main_arg5 = V1 m ρ c main_arg5 := W2_of_ne m ρ c main_arg5 (by decide)
theorem exit0_var (c : Dev nD) : V2 m ρ c main_arg6 = V1 m ρ c main_arg6 := W2_of_ne m ρ c main_arg6 (by decide)

/-! ## Where region 1 is entered: the shared pipeline applied to region 0's output -/

set_option maxHeartbeats 4000000 in
/-- The neighbour aggregate of region 0's output. -/
theorem entry1_agg (c : Dev nD) :
    V3 m ρ c main_v41 = Chain.agg (V2 m ρ c main_v5) (V2 m ρ c main_v1) (V2 m ρ c main_v3) := by
  show StableHlo.after hostOps1 (W2 m ρ c) (Proc.devRef .tc main_v41) = _
  after_results_simp
  rfl

set_option maxHeartbeats 4000000 in
/-- The self mean of region 0's output. -/
theorem entry1_selfMean (c : Dev nD) :
    V3 m ρ c main_v66 = Chain.selfMean (V2 m ρ c main_v5) (V2 m ρ c main_v1) := by
  show StableHlo.after hostOps1 (W2 m ρ c) (Proc.devRef .tc main_v66) = _
  after_results_simp
  rfl

set_option maxHeartbeats 4000000 in
/-- The normalisation's scale, as one row. -/
theorem entry1_scale (c : Dev nD) :
    V3 m ρ c main_v71 = Chain.row (Chain.bnScale (V2 m ρ c main_arg3) (V2 m ρ c main_arg6)) := by
  show StableHlo.after hostOps1 (W2 m ρ c) (Proc.devRef .tc main_v71) = _
  after_results_simp
  rfl

set_option maxHeartbeats 4000000 in
/-- The normalisation's shift, as one row. -/
theorem entry1_beta (c : Dev nD) : V3 m ρ c main_v72 = Chain.row (V2 m ρ c main_arg4) := by
  show StableHlo.after hostOps1 (W2 m ρ c) (Proc.devRef .tc main_v72) = _
  after_results_simp
  rfl

set_option maxHeartbeats 4000000 in
/-- The normalisation's running mean, as one row. -/
theorem entry1_mean (c : Dev nD) : V3 m ρ c main_v73 = Chain.row (V2 m ρ c main_arg5) := by
  show StableHlo.after hostOps1 (W2 m ρ c) (Proc.devRef .tc main_v73) = _
  after_results_simp
  rfl

end Cert.KernelIdeal.HostRead

end
-- ==== Proof.Spec.lean ====
/-
  What each of the two kernel regions leaves in its output array, as ONE function of the arrays the region reads,
  index by index, over the extended reals.

  * The dense transform: entry `(p, q)` of the result is the sum over the 128 feature columns `k` of
    `x[p, k] · w[k, q]`, plus the bias row's entry `q`. The kernel reaches it as a matrix product into a zero
    accumulator, 4000 rows at a time, through a change of float format that is the identity here.
  * The combine and normalisation: entry `(p, q)` of the result is
    `((a[p, q] + ½ · s[p, q]) − mean[q]) · scale[q] + beta[q]`, the three rows read at their one row.
-/
import proofs.«138750_j33552284516502_1_alg».proof.KernelIdeal
import Idealize.ShloMosaic.PureOps.Ideal.Laws
import Idealize.ShloMosaic.Lib.ValueIdx

noncomputable section

namespace Cert.KernelIdeal.Spec

open Idealize.ShloMosaic Cert.KernelIdeal

/-- The entry of the node-feature array in the row an output index names, at feature column `k`. -/
abbrev featIdx (i : S100000x64.Idx) (k : Fin 128) : S100000x128.Idx := fun a => match a with
  | ⟨0, _⟩ => ⟨(i 0).val, (i 0).isLt⟩
  | ⟨1, _⟩ => ⟨k.val, k.isLt⟩

/-- The entry of the weight array at feature row `k`, in the column an output index names. -/
abbrev weightIdx (i : S100000x64.Idx) (k : Fin 128) : S128x64.Idx := fun a => match a with
  | ⟨0, _⟩ => ⟨k.val, k.isLt⟩
  | ⟨1, _⟩ => ⟨(i 1).val, (i 1).isLt⟩

/-- The entry of a one-row array in the column an output index names. -/
abbrev rowIdx (i : S100000x64.Idx) : S1x64.Idx := fun a => match a with
  | ⟨0, _⟩ => (0 : Fin 1)
  | ⟨1, _⟩ => ⟨(i 1).val, (i 1).isLt⟩

/-- The dense transform `x · w + b`, the bias given as a one-row array. -/
def dense (x : FVec Ideal S100000x128 .f32) (w : FVec Ideal S128x64 .f32) (b : FVec Ideal S1x64 .f32) :
    FVec Ideal S100000x64 .f32 :=
  fun i => (∑ k : Fin 128, x (featIdx i k) * w (weightIdx i k)) + b (rowIdx i)

/-- The neighbour aggregate `a` and half the self mean `s`, centred by `mean`, scaled and shifted. -/
def affine (a s : FVec Ideal S100000x64 .f32) (scale beta mean : FVec Ideal S1x64 .f32) :
    FVec Ideal S100000x64 .f32 :=
  fun i => (a i + Ideal.ofBits .f32 0x3F000000#32 * s i - mean (rowIdx i)) * scale (rowIdx i) + beta (rowIdx i)

end Cert.KernelIdeal.Spec

end
-- ==== Proof.DenseRegion.lean ====
/-
  The dense transform's region, read as one whole-array function.

  The region walks its 100000 rows in 25 blocks of 4000. At block `t` it multiplies rows
  `4000·t … 4000·t + 3999` of the node features by the whole weight matrix, into a zero accumulator, and adds
  the one bias row to every row of the product. Over the extended reals nothing rounds and the change of float
  format in front of the product is the identity, so entry `(p, q)` of a block's result is
  `∑ k, x[p, k] · w[k, q] + b[0, q]` of the block's own rows. Block `t` of the output lies at the same rows as
  block `t` of the features, the 25 blocks are disjoint and fill the output, so the output array as a whole is
  `Spec.dense` of the three arrays the region reads.
-/
import proofs.«138750_j33552284516502_1_alg».proof.Proof.Gen.KernelIdeal.Frame
import proofs.«138750_j33552284516502_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseRegion

open Idealize.ShloMosaic Idealize.ShloMosaic.TcCoe Idealize.SL.Sem Cert.KernelIdeal Cert.KernelIdeal.Gen
open Idealize.ShloMosaic.Pipeline (Dat)
open Idealize.ShloMosaic.ValueIdx

/-! ## The matrix product's operand entries

The product contracts axis 1 of the left operand with axis 0 of the right. At output entry `i` and contraction
index `k` it reads the left operand at `(i 0, k)` and the right at `(k, i 1)`: one fact per operand axis. -/

theorem lhs_row (i : S4000x64.Idx) (k : dot_S4000x128_S128x64_S4000x64_1_0_0_1_n_n.contr.Idx) :
    (dot_S4000x128_S128x64_S4000x64_1_0_0_1_n_n.lhsIdx i k 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl

theorem lhs_col (i : S4000x64.Idx) (k : dot_S4000x128_S128x64_S4000x64_1_0_0_1_n_n.contr.Idx) :
    (dot_S4000x128_S128x64_S4000x64_1_0_0_1_n_n.lhsIdx i k 1).val = (k ⟨0, by decide⟩).val :=
  dot_S4000x128_S128x64_S4000x64_1_0_0_1_n_n.lhsIdx_val_of_single rfl i k

theorem rhs_row (i : S4000x64.Idx) (k : dot_S4000x128_S128x64_S4000x64_1_0_0_1_n_n.contr.Idx) :
    (dot_S4000x128_S128x64_S4000x64_1_0_0_1_n_n.rhsIdx i k 0).val = (k ⟨0, by decide⟩).val :=
  dot_S4000x128_S128x64_S4000x64_1_0_0_1_n_n.rhsIdx_val_of_single rfl i k

theorem rhs_col (i : S4000x64.Idx) (k : dot_S4000x128_S128x64_S4000x64_1_0_0_1_n_n.contr.Idx) :
    (dot_S4000x128_S128x64_S4000x64_1_0_0_1_n_n.rhsIdx i k 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- The product of a block of rows with the weights, into the zero accumulator, at entry `(p, q)`: the plain
    sum over the 128 feature columns. -/
theorem product_apply (a : FVec Ideal S4000x128 .bf16) (b : FVec Ideal S128x64 .bf16) (p : Fin 4000) (q : Fin 64) :
    matmul (F := Ideal) dot_S4000x128_S128x64_S4000x64_1_0_0_1_n_n none a b (constant (F := Ideal) S4000x64 .f32 0x00000000#32) (ix2 p q)
      = ∑ k : Fin 128, a (ix2 p k) * b (ix2 k q) := by
  simp only [matmul]
  rw [Ideal.matmul_constant_zero_apply, ← Equiv.sum_comp (ValueIdx.contrEquiv1 dot_S4000x128_S128x64_S4000x64_1_0_0_1_n_n 128 rfl rfl).symm]
  refine Finset.sum_congr rfl fun k _ => ?_
  have hk := ValueIdx.contrEquiv1_symm_val dot_S4000x128_S128x64_S4000x64_1_0_0_1_n_n 128 rfl rfl k
  have el : dot_S4000x128_S128x64_S4000x64_1_0_0_1_n_n.lhsIdx (ix2 p q) ((ValueIdx.contrEquiv1 dot_S4000x128_S128x64_S4000x64_1_0_0_1_n_n 128 rfl rfl).symm k) = ix2 p k := funext fun a => Fin.ext (by
    match a with
    | ⟨0, _⟩ => exact lhs_row _ _
    | ⟨1, _⟩ => exact (lhs_col _ _).trans hk)
  have er : dot_S4000x128_S128x64_S4000x64_1_0_0_1_n_n.rhsIdx (ix2 p q) ((ValueIdx.contrEquiv1 dot_S4000x128_S128x64_S4000x64_1_0_0_1_n_n 128 rfl rfl).symm k) = ix2 k q := funext fun a => Fin.ext (by
    match a with
    | ⟨0, _⟩ => exact (rhs_row _ _).trans hk
    | ⟨1, _⟩ => exact rhs_col _ _)
  rw [el, er]

/-- What the body computes from a block of rows `x0`, the weights `x1` and the bias row `x2`, at entry `(p, q)`
    of the block. -/
theorem payload_apply (x0 : Vec Ideal S4000x128 .f32) (x1 : Vec Ideal S128x64 .f32) (x2 : Vec Ideal S1x64 .f32)
    (p : Fin 4000) (q : Fin 64) :
    k0_pay1 x0 x1 x2 (ix2 p q) = (∑ k : Fin 128, x0 (ix2 p k) * x1 (ix2 k q)) + x2 (ix2 0 q) := by
  unfold k0_pay1
  rw [addf_apply, product_apply, shapeCast_self, broadcastTo_1b_ab_apply]
  simp only [truncf_apply]

/-! ## Where the blocks lie

At grid point `t` the feature window and the output window both take block row `t`; the weight window and
the bias window take their one block. Decided once over the 25 points. -/

theorem zero_offsets : (![0, 0] : Fin 2 → Nat) = fun _ => 0 := funext fun a => by fin_cases a <;> rfl

theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A row of block `t` is a row of the array: `4000 · t + p` stays below 100000. -/
theorem row_lt (t : Fin cfg0.N) (p : Fin 4000) : t.val * 4000 + p.val < 100000 := by
  have ht : t.val < 25 := lt_of_lt_of_eq t.isLt (show cfg0.N = 25 from N_0)
  have hp : p.val < 4000 := p.isLt
  omega

section Blocks
variable (V : (c : Dev nD) → (b : Ref sig .tc) → Buf (Elt Ideal) ((c : Thread nD τ).loc b)) (c : Dev nD)

/-- Entry `(p, k)` of the feature block at point `t` is entry `(4000 · t + p, k)` of the feature array. -/
theorem feature_block (t : Fin cfg0.N) (p : Fin 4000) (k : Fin 128) :
    (iblk0 (F := Ideal) V c 0 t : Vec Ideal S4000x128 .f32) (ix2 p k)
      = (V c main_arg0 : S100000x128.Idx → Elt Ideal .f32) (ix2 ⟨t.val * 4000 + p.val, row_lt t p⟩ k) := by
  obtain ⟨e0, e1, -⟩ := block_positions t
  unfold iblk0
  rw [View.read_apply]
  show V c main_arg0 _ = V c main_arg0 _
  congr 1
  funext a
  apply Fin.ext
  match a with
  | ⟨0, _⟩ => show win0_0.index t (0 : Fin 2) * 4000 + 1 * p.val = t.val * 4000 + p.val; omega
  | ⟨1, _⟩ => show win0_0.index t (1 : Fin 2) * 128 + 1 * k.val = k.val; omega

/-- The weight block at any point is the weight array. -/
theorem weight_block (t : Fin cfg0.N) (k : Fin 128) (q : Fin 64) :
    (iblk0 (F := Ideal) V c 1 t : Vec Ideal S128x64 .f32) (ix2 k q)
      = (V c main_arg1 : S128x64.Idx → Elt Ideal .f32) (ix2 k q) := by
  obtain ⟨-, -, e0, e1, -⟩ := block_positions t
  unfold iblk0
  rw [View.read_apply]
  show V c main_arg1 _ = V c main_arg1 _
  congr 1
  funext a
  apply Fin.ext
  match a with
  | ⟨0, _⟩ => show win0_1.index t (0 : Fin 2) * 128 + 1 * k.val = k.val; omega
  | ⟨1, _⟩ => show win0_1.index t (1 : Fin 2) * 64 + 1 * q.val = q.val; omega

/-- The bias block at any point is the one bias row. -/
theorem bias_block (t : Fin cfg0.N) (q : Fin 64) :
    (iblk0 (F := Ideal) V c 2 t : Vec Ideal S1x64 .f32) (ix2 (0 : Fin 1) q)
      = (V c main_v4 : S1x64.Idx → Elt Ideal .f32) (ix2 (0 : Fin 1) q) := by
  obtain ⟨-, -, -, -, e0, e1, -⟩ := block_positions t
  unfold iblk0
  rw [View.read_apply]
  show V c main_v4 _ = V c main_v4 _
  congr 1
  funext a
  apply Fin.ext
  match a with
  | ⟨0, _⟩ => show win0_2.index t (0 : Fin 2) * 1 + 1 * (0 : Fin 1).val = (0 : Fin 1).val; omega
  | ⟨1, _⟩ => show win0_2.index t (1 : Fin 2) * 64 + 1 * q.val = q.val; omega

end Blocks

/-! ## The dense transform at an entry, and the output block's entries -/

/-- `Spec.dense` at entry `(r, q)`: row `r` of the features against column `q` of the weights, plus the
    bias row's entry `q`. -/
theorem dense_apply (X : FVec Ideal S100000x128 .f32) (W : FVec Ideal S128x64 .f32) (B : FVec Ideal S1x64 .f32)
    (r : Fin 100000) (q : Fin 64) :
    Spec.dense X W B (ix2 r q) = (∑ k : Fin 128, X (ix2 r k) * W (ix2 k q)) + B (ix2 (0 : Fin 1) q) := by
  have hf : ∀ k : Fin 128, Spec.featIdx (ix2 r q) k = ix2 r k := fun k => funext fun a => by
    match a with
    | ⟨0, _⟩ => rfl
    | ⟨1, _⟩ => rfl
  have hw : ∀ k : Fin 128, Spec.weightIdx (ix2 r q) k = ix2 k q := fun k => funext fun a => by
    match a with
    | ⟨0, _⟩ => rfl
    | ⟨1, _⟩ => rfl
  have hb : Spec.rowIdx (ix2 r q) = ix2 (0 : Fin 1) q := funext fun a => by
    match a with
    | ⟨0, _⟩ => rfl
    | ⟨1, _⟩ => rfl
  show (∑ k : Fin 128, X (Spec.featIdx (ix2 r q) k) * W (Spec.weightIdx (ix2 r q) k)) + B (Spec.rowIdx (ix2 r q)) = _
  rw [hb]
  exact congrArg (· + B (ix2 (0 : Fin 1) q)) (Finset.sum_congr rfl fun k _ => by rw [hf k, hw k])

/-- Entry `(p, q)` of the output block at point `t` is entry `(4000 · t + p, q)` of the output array. -/
theorem output_entry (t : Fin cfg0.N) (p : Fin 4000) (q : Fin 64) :
    ((cfg0.win 3).blk t).view.emb (ix2 p q) = (ix2 ⟨t.val * 4000 + p.val, row_lt t p⟩ q : S100000x64.Idx) := by
  obtain ⟨-, -, -, -, -, -, e0, e1⟩ := block_positions t
  funext a
  apply Fin.ext
  match a with
  | ⟨0, _⟩ => show win0_3.index t (0 : Fin 2) * 4000 + 1 * p.val = t.val * 4000 + p.val; omega
  | ⟨1, _⟩ => show win0_3.index t (1 : Fin 2) * 64 + 1 * q.val = q.val; omega

/-! ## What a point writes back -/

section Run
variable (V : (c : Dev nD) → (b : Ref sig .tc) → Buf (Elt Ideal) ((c : Thread nD τ).loc b)) (c : Dev nD)

/-- Point `t` writes back block `t` of the dense transform of the three arrays as the region finds them. -/
theorem written_back (t : Fin cfg0.N) :
    (dat0 (F := Ideal) V c).flushed 3 t
      = ((cfg0.win 3).blk t).view.read (Elt Ideal) (Spec.dense (V c main_arg0) (V c main_arg1) (V c main_v4)) := by
  show (cfg0.win 3).cut (grid0.coords t) ((dat0 (F := Ideal) V c).after 3 t) = _
  rw [after0_3]
  unfold out0_3
  rw [View.canon_unit_zero zero_offsets]
  simp only [View.ld_unit_zero (S := S4000x128) zero_offsets, View.ld_unit_zero (S := S128x64) zero_offsets,
    View.ld_unit_zero (S := S1x64) zero_offsets]
  funext j
  obtain ⟨p, q, rfl⟩ : ∃ (p : Fin 4000) (q : Fin 64), j = ix2 p q := ⟨j 0, j 1, eq_ix2 j⟩
  show k0_pay1 (iblk0 (F := Ideal) V c 0 t) (iblk0 (F := Ideal) V c 1 t) (iblk0 (F := Ideal) V c 2 t) (ix2 p q)
    = Spec.dense (V c main_arg0) (V c main_arg1) (V c main_v4) (((cfg0.win 3).blk t).view.emb (ix2 p q))
  rw [output_entry t p q, dense_apply]
  refine (payload_apply (iblk0 (F := Ideal) V c 0 t) (iblk0 (F := Ideal) V c 1 t) (iblk0 (F := Ideal) V c 2 t) p q).trans ?_
  rw [bias_block V c t q]
  exact congrArg (· + (V c main_v4 : S1x64.Idx → Elt Ideal .f32) (ix2 (0 : Fin 1) q))
    (Finset.sum_congr rfl fun k _ => by rw [feature_block V c t p k, weight_block V c t k q])

/-! ## The blocks fill the output -/

/-- An entry of the output array lies in point `t`'s block when each coordinate lies in the block's range. -/
theorem mem_block (t : Fin cfg0.N) (i : S100000x64.Idx) :
    i ∈ ((cfg0.win 3).blk t).view.set ↔ ∀ a : Fin 2, win0_3.index t a * S4000x64.size a ≤ (i a).val
      ∧ (i a).val < win0_3.index t a * S4000x64.size a + S4000x64.size a := by
  show i ∈ ((View.whole main_v5).slice (win0_3.rect t)).set ↔ _
  rw [View.set_slice_whole, Rect.mem_set_unit]
  exact Iff.rfl

/-- Row `r` of the output lies in the block of point `r / 4000`, which writes back. -/
theorem covered (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ : ∃ t : Fin cfg0.N, t.val = (i 0).val / 4000 :=
    ⟨⟨(i 0).val / 4000, lt_of_lt_of_eq (show (i 0).val / 4000 < 25 by omega) (show cfg0.N = 25 from N_0).symm⟩, rfl⟩
  obtain ⟨-, -, -, -, -, -, e0, e1⟩ := block_positions t
  refine ⟨t, flush0_3 t, ?_⟩
  rw [mem_block]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 64 ≤ (i 1).val ∧ (i 1).val < win0_3.index t (1 : Fin 2) * 64 + 64
    omega

end Run

/-! ## The output array after the region -/

/-- After its 25 points the region's output array is the dense transform of the feature array, the weight array
    and the bias row as the region finds them. -/
theorem arr0 (V : (c : Dev nD) → (b : Ref sig .tc) → Buf (Elt Ideal) ((c : Thread nD τ).loc b)) (c : Dev nD) :
    (dat0 (F := Ideal) V c).arrAt 3 cfg0.N = Spec.dense (V c main_arg0) (V c main_arg1) (V c main_v4) :=
  (dat0 (F := Ideal) V c).arrAt_eq_of_cover 3 (Spec.dense (V c main_arg0) (V c main_arg1) (V c main_v4))
    (fun t _ => written_back V c t) covered

end Cert.KernelIdeal.DenseRegion

end
-- ==== Proof.AffineRegion.lean ====
/-
  The combine-and-normalise region, read as one function of its five input arrays.

  The region walks the 100000 rows of its output 4000 at a time, in 25 steps. At step `t` it takes rows
  `4000·t … 4000·t + 3999` of the neighbour aggregate `a` and of the self mean `s`, the single row of each of
  `scale`, `beta` and `mean`, and writes rows `4000·t … 4000·t + 3999` of the result. Inside a step the arithmetic is
  entry by entry: at row `p` of the block and column `q`,

      ((a_blk[p, q] + ½ · s_blk[p, q]) − mean[0, q]) · scale[0, q] + beta[0, q],

  the three rows spread over the 4000 rows of the block. Over the extended reals every operation is exact, so this is
  literally the entry `(4000·t + p, q)` of `Spec.affine a s scale beta mean`. The proof has four parts:

  * `payload_apply`: the step's arithmetic, read at one entry of the block, is the formula above;
  * `block_index_facts` and `block_entry`: where each input block sits in its array at step `t` (block row `t` for the
    two big inputs and for the output, block `(0, 0)` for the three rows), hence that an entry of the input blocks is
    the entry of the arrays that `Spec.affine` reads at the matching output position;
  * `flushed_eq`: so what step `t` writes back is block `t` of `Spec.affine …`;
  * `mem_block`, `covered`: row `r` lies in the block of step `r / 4000`, so the 25 blocks cover the array, and the
    array after the run is `Spec.affine …` everywhere (`arr1`).
-/
import proofs.«138750_j33552284516502_1_alg».proof.Proof.Gen.KernelIdeal.Frame
import proofs.«138750_j33552284516502_1_alg».proof.Proof.Spec
import Idealize.ShloMosaic.Lib.Pipeline.Value
import Idealize.ShloMosaic.Lib.ValueIdx
import Idealize.ShloMosaic.Lib.ValueLayout

noncomputable section

namespace Cert.KernelIdeal.AffineRegion

open Idealize.ShloMosaic Idealize.ShloMosaic.TcCoe Idealize.SL.Sem Cert.KernelIdeal Cert.KernelIdeal.Gen
open Idealize.ShloMosaic.ValueIdx

/-- The offsets `(0, 0)` of a load or store of a whole block are zero on both axes. -/
theorem offsets_zero : (![0, 0] : Fin 2 → Nat) = fun _ => 0 := funext fun a => by fin_cases a <;> rfl

/-! ## The step's arithmetic at one entry -/

/-- One entry of what a step computes from its five blocks. The two big blocks pass through casts to their own shape,
    which change nothing; the constant one half is the same at every entry; each of the three one-row blocks is spread
    over the 4000 rows, so at `(p, q)` it is read at `(0, q)`. The third argument is the row that is subtracted (the
    mean), the fourth the row that multiplies (the scale), the fifth the row that is added last (the shift). -/
theorem payload_apply (v0 v2 : Vec Ideal S4000x64 .f32) (v7 v11 v15 : Vec Ideal S1x64 .f32)
    (p : Fin 4000) (q : Fin 64) :
    k1_pay1 v0 v2 v7 v11 v15 (ix2 p q)
      = (v0 (ix2 p q) + Ideal.ofBits .f32 0x3F000000#32 * v2 (ix2 p q) - v7 (ix2 0 q)) * v11 (ix2 0 q)
          + v15 (ix2 0 q) := by
  unfold k1_pay1
  simp only [shapeCast_self]
  rw [addf_apply, mulf_apply, subf_apply, addf_apply, mulf_apply, broadcast_apply,
    broadcastTo_1b_ab_apply, broadcastTo_1b_ab_apply, broadcastTo_1b_ab_apply]
  rfl

/-! ## Where the blocks sit -/

/-- The block each array hands to step `t`, checked over the 25 steps: block row `t` (and the only block column) for
    the two big inputs and for the output; the one block there is for each of the three rows. -/
theorem block_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The formula over the input blocks' entries is the whole-array function at the output block's entry. An entry
    `(p, q)` of a block sits in its array at (block row · 4000 + p, block column · 64 + q): the two big inputs' blocks
    and the output's have the same block indices, so their entries sit at the same place; a one-row array's block is the
    array, so its entry `(0, q)` is row 0, column `q`, which is the column of the output position. -/
theorem block_entry (A S : FVec Ideal S100000x64 .f32) (sc be me : FVec Ideal S1x64 .f32)
    (t : Fin cfg1.N) (p : Fin 4000) (q : Fin 64) :
    (A (((cfg1.win 0).blk t).view.emb (ix2 p q))
        + Ideal.ofBits .f32 0x3F000000#32 * S (((cfg1.win 1).blk t).view.emb (ix2 p q))
        - me (((cfg1.win 4).blk t).view.emb (ix2 0 q)))
        * sc (((cfg1.win 2).blk t).view.emb (ix2 0 q))
        + be (((cfg1.win 3).blk t).view.emb (ix2 0 q))
      = Spec.affine A S sc be me (((cfg1.win 5).blk t).view.emb (ix2 p q)) := by
  obtain ⟨e00, e01, e10, e11, e20, e21, e30, e31, e40, e41, e50, e51⟩ := block_index_facts t
  have hagg : ((cfg1.win 0).blk t).view.emb (ix2 p q) = ((cfg1.win 5).blk t).view.emb (ix2 p q) := by
    funext a; apply Fin.ext
    match a with
    | ⟨0, _⟩ =>
      show win1_0.index t (0 : Fin 2) * 4000 + 1 * p.val = win1_5.index t (0 : Fin 2) * 4000 + 1 * p.val; omega
    | ⟨1, _⟩ =>
      show win1_0.index t (1 : Fin 2) * 64 + 1 * q.val = win1_5.index t (1 : Fin 2) * 64 + 1 * q.val; omega
  have hself : ((cfg1.win 1).blk t).view.emb (ix2 p q) = ((cfg1.win 5).blk t).view.emb (ix2 p q) := by
    funext a; apply Fin.ext
    match a with
    | ⟨0, _⟩ =>
      show win1_1.index t (0 : Fin 2) * 4000 + 1 * p.val = win1_5.index t (0 : Fin 2) * 4000 + 1 * p.val; omega
    | ⟨1, _⟩ =>
      show win1_1.index t (1 : Fin 2) * 64 + 1 * q.val = win1_5.index t (1 : Fin 2) * 64 + 1 * q.val; omega
  have hscale : ((cfg1.win 2).blk t).view.emb (ix2 0 q)
      = Spec.rowIdx (((cfg1.win 5).blk t).view.emb (ix2 p q)) := by
    funext a; apply Fin.ext
    match a with
    | ⟨0, _⟩ => show win1_2.index t (0 : Fin 2) * 1 + 1 * 0 = 0; omega
    | ⟨1, _⟩ =>
      show win1_2.index t (1 : Fin 2) * 64 + 1 * q.val = win1_5.index t (1 : Fin 2) * 64 + 1 * q.val; omega
  have hbeta : ((cfg1.win 3).blk t).view.emb (ix2 0 q)
      = Spec.rowIdx (((cfg1.win 5).blk t).view.emb (ix2 p q)) := by
    funext a; apply Fin.ext
    match a with
    | ⟨0, _⟩ => show win1_3.index t (0 : Fin 2) * 1 + 1 * 0 = 0; omega
    | ⟨1, _⟩ =>
      show win1_3.index t (1 : Fin 2) * 64 + 1 * q.val = win1_5.index t (1 : Fin 2) * 64 + 1 * q.val; omega
  have hmean : ((cfg1.win 4).blk t).view.emb (ix2 0 q)
      = Spec.rowIdx (((cfg1.win 5).blk t).view.emb (ix2 p q)) := by
    funext a; apply Fin.ext
    match a with
    | ⟨0, _⟩ => show win1_4.index t (0 : Fin 2) * 1 + 1 * 0 = 0; omega
    | ⟨1, _⟩ =>
      show win1_4.index t (1 : Fin 2) * 64 + 1 * q.val = win1_5.index t (1 : Fin 2) * 64 + 1 * q.val; omega
  rw [hagg, hself, hscale, hbeta, hmean]
  rfl

/-! ## What a step writes back -/

/-- Step `t` writes back block `t` of the whole-array function of the five arrays as the region finds them: the
    step's one store fills its whole block with the arithmetic of the five loaded blocks, each load reads its whole
    block, and entry by entry that arithmetic is the function at the entry's place in the array. -/
theorem flushed_eq (V : (c : Dev nD) → (b : Ref sig .tc) → Buf (Elt Ideal) ((c : Thread nD τ).loc b))
    (c : Dev nD) (t : Fin cfg1.N) :
    (dat1 (F := Ideal) V c).flushed 5 t
      = ((cfg1.win 5).blk t).view.read (Elt Ideal)
          (Spec.affine (V c main_v41) (V c main_v66) (V c main_v71) (V c main_v72) (V c main_v73)) := by
  show (cfg1.win 5).cut (grid1.coords t) ((dat1 V c).after 5 t) = _
  rw [after1_5]
  unfold out1_5
  rw [View.canon_unit_zero offsets_zero]
  simp only [View.ld_unit_zero (S := S4000x64) offsets_zero, View.ld_unit_zero (S := S1x64) offsets_zero]
  funext j
  obtain ⟨p, q, rfl⟩ : ∃ (p : Fin 4000) (q : Fin 64), j = ix2 p q := ⟨j 0, j 1, eq_ix2 j⟩
  refine (payload_apply (iblk1 V c 0 t) (iblk1 V c 1 t) (iblk1 V c 4 t) (iblk1 V c 2 t) (iblk1 V c 3 t) p q).trans ?_
  exact block_entry (V c main_v41) (V c main_v66) (V c main_v71) (V c main_v72) (V c main_v73) t p q

/-! ## The 25 blocks cover the array -/

/-- A position of the output array is in step `t`'s block exactly when, on each axis, its coordinate is within one
    block size of the block's first coordinate. -/
theorem mem_block (t : Fin cfg1.N) (i : S100000x64.Idx) :
    i ∈ ((cfg1.win 5).blk t).view.set
      ↔ ∀ a : Fin 2, win1_5.index t a * S4000x64.size a ≤ (i a).val
          ∧ (i a).val < win1_5.index t a * S4000x64.size a + S4000x64.size a := by
  show i ∈ ((View.whole main_v74).slice (win1_5.rect t)).set ↔ _
  rw [View.set_slice_whole, Rect.mem_set_unit]
  exact Iff.rfl

/-- Every position is written by some step: row `r` is below 100000, so `r / 4000` is one of the 25 steps, and
    `4000 · (r / 4000) ≤ r < 4000 · (r / 4000) + 4000`; the 64 columns are the one block column. -/
theorem covered (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, -, -, -, -, -, -, -, -, e50, e51⟩ := block_index_facts ⟨(i 0).val / 4000, ht⟩
  refine ⟨⟨(i 0).val / 4000, ht⟩, flush1_5 _, ?_⟩
  rw [mem_block]
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    have e : win1_5.index ⟨(i 0).val / 4000, ht⟩ (0 : Fin 2) = (i 0).val / 4000 := e50
    omega
  | ⟨1, _⟩ =>
    show win1_5.index ⟨(i 0).val / 4000, ht⟩ (1 : Fin 2) * 64 ≤ (i 1).val
      ∧ (i 1).val < win1_5.index ⟨(i 0).val / 4000, ht⟩ (1 : Fin 2) * 64 + 64
    omega

/-! ## The array after the region -/

/-- After the 25 steps the output array holds, at every `(p, q)`,
    `((a[p, q] + ½ · s[p, q]) − mean[0, q]) · scale[0, q] + beta[0, q]` of the arrays the region read: every step writes
    its block of that one function, and the blocks cover the array. -/
theorem arr1 (V : (c : Dev nD) → (b : Ref sig .tc) → Buf (Elt Ideal) ((c : Thread nD τ).loc b)) (c : Dev nD) :
    (dat1 (F := Ideal) V c).arrAt 5 cfg1.N
      = Spec.affine (V c main_v41) (V c main_v66) (V c main_v71) (V c main_v72) (V c main_v73) :=
  (dat1 V c).arrAt_eq_of_cover 5 _ (fun t _ => flushed_eq V c t) covered

end Cert.KernelIdeal.AffineRegion

end
-- ==== Proof.Result.lean ====
/-
  The layer's output as ONE function of the eight argument arrays, over the extended reals: the dense transform
  `h = x · w + b`; from `h` and the edge list the neighbour aggregate and the self mean (the shared host pipeline, never
  opened); then, entry by entry, `((agg + ½ · selfMean) − mean) · (gamma · (var + 10⁻³)^(−½)) + beta`.
  Both programs' runs are stated at this one term.
-/
import proofs.«138750_j33552284516502_1_alg».proof.Proof.Spec
import proofs.«138750_j33552284516502_1_alg».proof.Proof.Chain

noncomputable section

namespace Cert.KernelIdeal.Result

open Idealize.ShloMosaic Cert.KernelIdeal

variable [Cert.KernelIdeal.Facts]

/-- The dense transform of the node features. -/
def hidden (x : FVec Ideal S100000x128 .f32) (w : FVec Ideal S128x64 .f32) (b : FVec Ideal S64 .f32) :
    FVec Ideal S100000x64 .f32 :=
  Spec.dense x w (Chain.row (F := Ideal) b)

/-- The layer's output. -/
def out (x : FVec Ideal S100000x128 .f32) (w : FVec Ideal S128x64 .f32) (b gamma beta mean var : FVec Ideal S64 .f32)
    (e : (⟨S1000000x2, .i32⟩ : BufTy).Contents (Elt Ideal)) : FVec Ideal S100000x64 .f32 :=
  Spec.affine (Chain.agg (F := Ideal) (hidden x w b) (Chain.srcOf (F := Ideal) e) (Chain.dstOf (F := Ideal) e))
    (Chain.selfMean (F := Ideal) (hidden x w b) (Chain.srcOf (F := Ideal) e))
    (Chain.row (F := Ideal) (Chain.bnScale (F := Ideal) gamma var)) (Chain.row (F := Ideal) beta) (Chain.row (F := Ideal) mean)

end Cert.KernelIdeal.Result

end
-- ==== Proof.KValue.lean ====
/-
  The idealized kernel program's result is the layer's one function of the arguments (`Result.out`).

  Read backwards from the end of the run: the result buffer is region 1's output array, which is the combine of the
  arrays its windows name; those are the shared pipeline applied to region 0's output array and to the edge list's
  columns, and the normalisation's vectors as rows; region 0's output array is the dense transform of the node
  features, the weights and the bias row; and those are the launch contents. Each step is one equation; the pipeline is
  never opened.
-/
import proofs.«138750_j33552284516502_1_alg».proof.Proof.KRun
import proofs.«138750_j33552284516502_1_alg».proof.Proof.KHost
import proofs.«138750_j33552284516502_1_alg».proof.Proof.DenseRegion
import proofs.«138750_j33552284516502_1_alg».proof.Proof.AffineRegion
import proofs.«138750_j33552284516502_1_alg».proof.Proof.Result

set_option maxRecDepth 16384

noncomputable section

namespace Cert.KernelIdeal.KValue

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- Region 0's output array, as region 1's stretch finds it, is the dense transform of the launch contents. -/
theorem hidden_eq (c : Dev nD) :
    V2 m ρ c main_v5 = Result.hidden (m ((c : Thread nD τ).loc main_arg0)) (m ((c : Thread nD τ).loc main_arg1))
      (m ((c : Thread nD τ).loc main_arg2)) := by
  rw [HostRead.exit0_hidden, DenseRegion.arr0 (V1 m ρ) c, HostRead.entry0_features, HostRead.entry0_weights,
    HostRead.entry0_bias]
  rfl

/-- The result buffer at the end of the run is the layer's function of the launch contents. -/
theorem result_eq (c : Dev nD) :
    W4 m ρ c (Proc.devRef .tc main_v74)
      = Result.out (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (W4_arr m ρ c 5).trans ?_
  rw [AffineRegion.arr1 (V3 m ρ) c, HostRead.entry1_agg, HostRead.entry1_selfMean, HostRead.entry1_scale,
    HostRead.entry1_beta, HostRead.entry1_mean, hidden_eq, HostRead.exit0_src, HostRead.exit0_dst, HostRead.exit0_gamma,
    HostRead.exit0_beta, HostRead.exit0_mean, HostRead.exit0_var, HostRead.entry0_src, HostRead.entry0_dst,
    HostRead.entry0_gamma, HostRead.entry0_beta, HostRead.entry0_mean, HostRead.entry0_var]
  rfl

/-- Every weakly fair execution of the idealized kernel program terminates, nothing faulting, with the result at the
    layer's function of the arguments and the arguments as launched. -/
theorem run : θ_run defs (onTc (τ := τ) (main (F := Ideal))) ⟨m, fun _ => 0, ρ⟩ (fun r => ∀ c : Dev nD,
      r.2.mem ((c.tc : Thread nD τ).loc main_v74)
        = Result.out (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (NamedRun.run_named m ρ)

end Cert.KernelIdeal.KValue

end
-- ==== Proof.RefValue.lean ====
/-
  The idealized reference's result is the layer's one function of the arguments (`Result.out`).

  The reference is a straight line of host operations. Its last stages are elementwise and are read at an index: entry
  `(p, q)` is `((A + ½ · M) − mean[q]) · scale[q] + beta[q]`, each 64-vector reaching the entry through two broadcasts
  that read it at `q`. The long middle stretch — degrees, endpoint factors, gathers and segment sums — is the same
  pipeline the kernel program runs on the host, applied to the reference's own dense stage, so it is identified with
  the named pipeline by unfolding definitions only and never read at an index. The dense stage is a contraction over the
  128 feature columns plus the bias, which over the extended reals is the sum that `Spec.dense` spells out.
-/
import proofs.«138750_j33552284516502_1_alg».proof.Proof.Gen.ReferenceIdeal.Read
import proofs.«138750_j33552284516502_1_alg».proof.Proof.Gen.KernelIdeal
import proofs.«138750_j33552284516502_1_alg».proof.Proof.Result
import Idealize.ShloMosaic.Lib.ValueLayout

noncomputable section

namespace Cert.ReferenceIdeal.RefValue

open Idealize.ShloMosaic Idealize.ShloMosaic.ValueIdx Cert.ReferenceIdeal Cert.ReferenceIdeal.Read

/-! ## The shared pipeline, by unfolding -/

section Shared

variable {F : FTy → Type} [FloatOps F]

/-- The reference slices the edges' sources as the pipeline's `srcOf` does. -/
theorem src_eq (x7 : (⟨S1000000x2, .i32⟩ : BufTy).Contents (Elt F)) :
    val_main_v1 (F := F) x7 = Cert.KernelIdeal.Chain.srcOf (F := F) x7 := rfl

/-- The reference slices the edges' destinations as the pipeline's `dstOf` does. -/
theorem dst_eq (x7 : (⟨S1000000x2, .i32⟩ : BufTy).Contents (Elt F)) :
    val_main_v3 (F := F) x7 = Cert.KernelIdeal.Chain.dstOf (F := F) x7 := rfl

/-- The reference's scale is the pipeline's. -/
theorem scale_eq (x3 x6 : (⟨S64, .f32⟩ : BufTy).Contents (Elt F)) :
    val_main_v78 (F := F) x3 x6 = Cert.KernelIdeal.Chain.bnScale (F := F) x3 x6 := rfl

set_option maxHeartbeats 1000000 in
/-- The reference's halved neighbour sum is the pipeline's aggregate of the reference's dense stage. -/
theorem agg_eq (x0 : (⟨S100000x128, .f32⟩ : BufTy).Contents (Elt F)) (x1 : (⟨S128x64, .f32⟩ : BufTy).Contents (Elt F))
    (x2 : (⟨S64, .f32⟩ : BufTy).Contents (Elt F)) (x7 : (⟨S1000000x2, .i32⟩ : BufTy).Contents (Elt F)) :
    val_main_v43 (F := F) x0 x1 x2 x7
      = Cert.KernelIdeal.Chain.agg (F := F) (val_main_v7 (F := F) x0 x1 x2) (val_main_v1 (F := F) x7) (val_main_v3 (F := F) x7) := rfl

set_option maxHeartbeats 1000000 in
/-- The reference's self mean is the pipeline's, of the reference's dense stage. -/
theorem selfMean_eq (x0 : (⟨S100000x128, .f32⟩ : BufTy).Contents (Elt F)) (x1 : (⟨S128x64, .f32⟩ : BufTy).Contents (Elt F))
    (x2 : (⟨S64, .f32⟩ : BufTy).Contents (Elt F)) (x7 : (⟨S1000000x2, .i32⟩ : BufTy).Contents (Elt F)) :
    val_main_v68 (F := F) x0 x1 x2 x7
      = Cert.KernelIdeal.Chain.selfMean (F := F) (val_main_v7 (F := F) x0 x1 x2) (val_main_v1 (F := F) x7) := rfl

end Shared

/-! ## A 64-vector read at the column an output index names -/

/-- The entry of a 64-vector in the column an output index names. -/
abbrev colIdx (i : S100000x64.Idx) : S64.Idx := fun a => match a with
  | ⟨0, _⟩ => ⟨(i 1).val, (i 1).isLt⟩

/-- A 64-vector laid out as one row, read at the row entry an output index names, is the vector at that column. -/
theorem row_apply (v : FVec Ideal S64 .f32) (i : S100000x64.Idx) :
    Cert.KernelIdeal.Chain.row (F := Ideal) v (Cert.KernelIdeal.Spec.rowIdx i) = v (colIdx i) := by
  have hr : Cert.KernelIdeal.Spec.rowIdx i = ix2 (0 : Fin 1) (⟨(i 1).val, (i 1).isLt⟩ : Fin 64) :=
    funext fun a => match a with
      | ⟨0, _⟩ => rfl
      | ⟨1, _⟩ => rfl
  have hc : colIdx i = ix1 (⟨(i 1).val, (i 1).isLt⟩ : Fin 64) :=
    funext fun a => match a with
      | ⟨0, _⟩ => rfl
  unfold Cert.KernelIdeal.Chain.row
  rw [hr, hc]
  exact shapeCast_a_1a_apply v _ (0 : Fin 1) (⟨(i 1).val, (i 1).isLt⟩ : Fin 64)

/-! ## The dense stage -/

/-- The reference's dense stage — the contraction of the features with the weights, plus the bias broadcast down the
    rows — is the sum over the feature columns plus the bias entry. -/
theorem hidden_eq (x0 : FVec Ideal S100000x128 .f32) (x1 : FVec Ideal S128x64 .f32) (x2 : FVec Ideal S64 .f32) :
    val_main_v7 (F := Ideal) x0 x1 x2 = Cert.KernelIdeal.Result.hidden x0 x1 x2 := by
  funext i
  rw [val_main_v7_apply, val_main_v4_apply, val_main_v6_apply, val_main_v5_apply]
  unfold Cert.KernelIdeal.Result.hidden Cert.KernelIdeal.Spec.dense
  rw [row_apply]
  have el : ∀ k : Fin 128, lidx_main_v4 i k = Cert.KernelIdeal.Spec.featIdx i k := fun k =>
    funext fun a => match a with
      | ⟨0, _⟩ => rfl
      | ⟨1, _⟩ => rfl
  have er : ∀ k : Fin 128, ridx_main_v4 i k = Cert.KernelIdeal.Spec.weightIdx i k := fun k =>
    funext fun a => match a with
      | ⟨0, _⟩ => rfl
      | ⟨1, _⟩ => rfl
  have eb : idx_main_v5 (idx_main_v6 i) = colIdx i :=
    funext fun a => match a with
      | ⟨0, _⟩ => rfl
  simp only [el, er, eb]
  rfl

/-! ## The result -/

/-- The reference's result stage is the layer's function of the eight arguments. -/
theorem result_eq (x0 : FVec Ideal S100000x128 .f32) (x1 : FVec Ideal S128x64 .f32) (x2 x3 x4 x5 x6 : FVec Ideal S64 .f32)
    (x7 : (⟨S1000000x2, .i32⟩ : BufTy).Contents (Elt Ideal)) :
    val_main_v84 (F := Ideal) x0 x1 x2 x3 x4 x5 x6 x7 = Cert.KernelIdeal.Result.out x0 x1 x2 x3 x4 x5 x6 x7 := by
  funext i
  rw [val_main_v84_apply, val_main_v81_apply, val_main_v74_apply, val_main_v71_apply, val_main_v70_apply,
    val_main_v69_apply, val_main_cst_15_apply, val_main_v73_apply, val_main_v72_apply, val_main_v80_apply,
    val_main_v79_apply, val_main_v83_apply, val_main_v82_apply, agg_eq, selfMean_eq, scale_eq, hidden_eq, src_eq, dst_eq]
  unfold Cert.KernelIdeal.Result.out Cert.KernelIdeal.Spec.affine
  rw [row_apply, row_apply, row_apply]
  have e5 : idx_main_v72 (idx_main_v73 i) = colIdx i :=
    funext fun a => match a with
      | ⟨0, _⟩ => rfl
  have e3 : idx_main_v79 (idx_main_v80 i) = colIdx i :=
    funext fun a => match a with
      | ⟨0, _⟩ => rfl
  have e4 : idx_main_v82 (idx_main_v83 i) = colIdx i :=
    funext fun a => match a with
      | ⟨0, _⟩ => rfl
  rw [e5, e3, e4]
  rfl

end Cert.ReferenceIdeal.RefValue

end
-- ==== Proof.lean ====
/-
  A graph-convolution layer on 100000 nodes and 1000000 edges, as a TPU program, against its plain array-language
  reference, over the extended reals.

  The layer: `h = x · w + b` (128 features to 64 hidden units); from `h` and the edge list, the neighbour aggregate
  (half the sum over each node's outgoing edges of `deg(src)^(−½) · deg(dst)^(−½) · h[dst]`) and the self mean (the
  degree-weighted sum of `h[src]` over the same edges, divided by the larger of the degree and one); then, entry by entry,
  `((agg + ½ · selfMean) − mean) · (gamma · (var + 10⁻³)^(−½)) + beta`.

  The TPU program computes `h` in a first pipelined region, 4000 rows at a time, as a matrix product into a zero
  accumulator through a narrower float format (the identity over the extended reals); runs the gathers and segment sums
  on the host exactly as the reference does; and fuses the final combine into a second pipelined region. So both
  programs end at ONE function of the eight arguments, `Result.out`: the only mathematics is that a matrix product into
  zero and a contraction are the same sum over the 128 feature columns, and that a row broadcast reads its one row.
  No law that needs finite inputs is used, so the precondition is never opened.

  * The three frames: the two kernel programs' are the generated frames; the reference's is its generated run with the
    result dropped.
  * The idealization rewrote nothing, so there is nothing to preserve.
  * The value claim: the kernel program's run with its result named (`KValue.run`) and the reference's run, whose result
    term is the same function (`RefValue.result_eq`) of arguments that agree.
-/
import proofs.«138750_j33552284516502_1_alg».proof.Defs
import proofs.«138750_j33552284516502_1_alg».proof.Proof.Gen.Kernel
import proofs.«138750_j33552284516502_1_alg».proof.Proof.Gen.Kernel.Skeleton
import proofs.«138750_j33552284516502_1_alg».proof.Proof.Gen.Kernel.Launch
import proofs.«138750_j33552284516502_1_alg».proof.Proof.Gen.Kernel.Points
import proofs.«138750_j33552284516502_1_alg».proof.Proof.Gen.Kernel.Frame
import proofs.«138750_j33552284516502_1_alg».proof.Proof.Gen.KernelIdeal
import proofs.«138750_j33552284516502_1_alg».proof.Proof.Gen.KernelIdeal.Skeleton
import proofs.«138750_j33552284516502_1_alg».proof.Proof.Gen.KernelIdeal.Launch
import proofs.«138750_j33552284516502_1_alg».proof.Proof.Gen.KernelIdeal.Points
import proofs.«138750_j33552284516502_1_alg».proof.Proof.Gen.KernelIdeal.Frame
import proofs.«138750_j33552284516502_1_alg».proof.Proof.Gen.ReferenceIdeal
import proofs.«138750_j33552284516502_1_alg».proof.Proof.Gen.Pre_finite_inputs
import proofs.«138750_j33552284516502_1_alg».proof.Proof.Gen.ReferenceIdeal.Run
import proofs.«138750_j33552284516502_1_alg».proof.Proof.Gen.ReferenceIdeal.Read
import proofs.«138750_j33552284516502_1_alg».proof.Proof.KValue
import proofs.«138750_j33552284516502_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with the layer's function of them. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v84_eq, Cert.ReferenceIdeal.RefValue.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
